-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x40 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S1x40 : Shape := ⟨2, ![1, 40]⟩
abbrev S5000x128 : Shape := ⟨2, ![5000, 128]⟩
abbrev S850000x128 : Shape := ⟨2, ![850000, 128]⟩
abbrev S50000x40 : Shape := ⟨2, ![50000, 40]⟩
abbrev S5000x40 : Shape := ⟨2, ![5000, 40]⟩

abbrev nBuf : Space → Nat
  | .hbm => 100
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x40, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x128, .f32⟩
  | .hbm, ⟨74, _⟩ => ⟨S850000x1, .f32⟩
  | .hbm, ⟨75, _⟩ => ⟨S850000x128, .f32⟩
  | .hbm, ⟨76, _⟩ => ⟨S850000x128, .f32⟩
  | .hbm, ⟨77, _⟩ => ⟨S_, .f32⟩
  | .hbm, ⟨78, _⟩ => ⟨S50000x128, .f32⟩
  | .hbm, ⟨79, _⟩ => ⟨S850000x1, .i32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x128, .f32⟩
  | .hbm, ⟨91, _⟩ => ⟨S850000x1, .f32⟩
  | .hbm, ⟨92, _⟩ => ⟨S850000x128, .f32⟩
  | .hbm, ⟨93, _⟩ => ⟨S850000x128, .f32⟩
  | .hbm, ⟨94, _⟩ => ⟨S_, .f32⟩
  | .hbm, ⟨95, _⟩ => ⟨S50000x128, .f32⟩
  | .hbm, ⟨96, _⟩ => ⟨S850000x1, .i32⟩
  | .hbm, ⟨97, _⟩ => ⟨S50000x128, .f32⟩
  | .hbm, ⟨98, _⟩ => ⟨S50000x128, .f32⟩
  | .hbm, ⟨99, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x40, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S128_S1x128 : S128.ShapeCasts S1x128
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S50000x40.size a
  hwx4_3 : ∀ i : grid4.Coords, EltTy.bits .f32 = 32 ∨ (Rect.block (s := S50000x40) S5000x40.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S1x40 : Shape := ⟨2, ![1, 40]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S50000x128, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x1, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S50000x128, .f32⟩
  | .hbm, ⟨81, _⟩ => ⟨S850000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x128, .f32⟩
  | .hbm, ⟨99, _⟩ => ⟨S850000x1, .f32⟩
  | .hbm, ⟨100, _⟩ => ⟨S850000x128, .f32⟩
  | .hbm, ⟨101, _⟩ => ⟨S850000x128, .f32⟩
  | .hbm, ⟨102, _⟩ => ⟨S_, .f32⟩
  | .hbm, ⟨103, _⟩ => ⟨S50000x128, .f32⟩
  | .hbm, ⟨104, _⟩ => ⟨S850000x1, .i32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S_, .f32⟩
  | .hbm, ⟨110, _⟩ => ⟨S50000x128, .f32⟩
  | .hbm, ⟨111, _⟩ => ⟨S50000x128, .f32⟩
  | .hbm, ⟨112, _⟩ => ⟨S50000x40, .f32⟩
  | .hbm, ⟨113, _⟩ => ⟨S1x40, .f32⟩
  | .hbm, ⟨114, _⟩ => ⟨S50000x40, .f32⟩
  | .hbm, ⟨115, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_call2_cst : Ref sig .tc := ⟨.hbm, 109, rfl⟩
abbrev main_call2_v0 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KBody.lean ====
/-
  The five kernel bodies' stored values, read at one index of the block, at the ideal instance.

  A block is 5000 rows of its array. Over the extended reals a change of float format is the identity and a
  matrix product into a zero accumulator is the plain sum over the contracted axis, so:
  * the first layer's body stores, at row r and column j, the sum over k of x[r,k] * w[k,j];
  * the second and third layers' bodies first add the bias row and clamp at zero, then take the same product:
    the sum over k of max (a[r,k] + b[0,k]) 0 * w[k,j];
  * the last hidden state's body stores max (a[r,j] + b[0,j]) 0;
  * the head's body stores (the sum over k of h[r,k] * w[k,j]) + b[0,j].
  The zero the bodies clamp at is kept as the literal word's value; it is the same word on the reference's side.
-/
import proofs.«177000_j57277683859885_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The product of a 5000 x 128 block with a 128 x 128 matrix -/

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row r, column j of the block product into zero is the sum over the shared axis. -/
theorem mm128_apply {φ₁ φ₂ : FTy} (x : FVec Ideal S5000x128 φ₁) (w : FVec Ideal S128x128 φ₂) (r : Fin 5000) (j : Fin 128) :
    FloatOps.matmul dot_S5000x128_S128x128_S5000x128_1_0_0_1_n_n none x w (constant S5000x128 .f32 0x00000000#32) (ix2 r j)
      = ∑ k : Fin 128, x (ix2 r k) * w (ix2 k j) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs128_0 _ _).trans hk
    | ⟨1, _⟩ => exact rhs128_1 _ _)
  rw [el, er]

/-! ## The product of a 5000 x 128 block with the 128 x 40 head matrix -/

theorem lhs40_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs40_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem rhs40_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem rhs40_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

theorem mm40_apply {φ₁ φ₂ : FTy} (x : FVec Ideal S5000x128 φ₁) (w : FVec Ideal S128x40 φ₂) (r : Fin 5000) (j : Fin 40) :
    FloatOps.matmul dot_S5000x128_S128x40_S5000x40_1_0_0_1_n_n none x w (constant S5000x40 .f32 0x00000000#32) (ix2 r j)
      = ∑ k : Fin 128, x (ix2 r k) * w (ix2 k j) := by
  rw [Ideal.matmul_constant_zero_apply, ← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx (ix2 r j) ((ValueIdx.contrEquiv1 dot_S5000x128_S128x40_S5000x40_1_0_0_1_n_n 128 rfl rfl).symm k) = ix2 r k := funext fun a => Fin.ext (by
    match a with
    | ⟨0, _⟩ => exact lhs40_0 _ _
    | ⟨1, _⟩ => exact (lhs40_1 _ _).trans hk)
  have er : dot_S5000x128_S128x40_S5000x40_1_0_0_1_n_n.rhsIdx (ix2 r j) ((ValueIdx.contrEquiv1 dot_S5000x128_S128x40_S5000x40_1_0_0_1_n_n 128 rfl rfl).symm k) = ix2 k j := funext fun a => Fin.ext (by
    match a with
    | ⟨0, _⟩ => exact (rhs40_0 _ _).trans hk
    | ⟨1, _⟩ => exact rhs40_1 _ _)
  rw [el, er]

/-! ## The bias row spread over the block's rows -/

/-- The one-row bias spread to 5000 rows reads, at row r and column j, the bias at column j. -/
theorem biasRow128_apply (b : Vec Ideal S1x128 .f32) (r : Fin 5000) (j : Fin 128) :
    broadcastTo S5000x128 b broadcasts_S1x128_S5000x128 (ix2 r j) = b (ix2 (0 : Fin 1) j) := by
  refine broadcastTo_apply b broadcasts_S1x128_S5000x128 (ix2 r j) (ix2 (0 : Fin 1) j) fun a => ?_
  match a with
  | ⟨0, _⟩ => rfl
  | ⟨1, _⟩ => rfl

theorem biasRow40_apply (b : Vec Ideal S1x40 .f32) (r : Fin 5000) (j : Fin 40) :
    broadcastTo S5000x40 b broadcasts_S1x40_S5000x40 (ix2 r j) = b (ix2 (0 : Fin 1) j) := by
  refine broadcastTo_apply b broadcasts_S1x40_S5000x40 (ix2 r j) (ix2 (0 : Fin 1) j) fun a => ?_
  match a with
  | ⟨0, _⟩ => rfl
  | ⟨1, _⟩ => rfl

/-- Bias, then clamp at zero: one entry of what the hidden layers feed forward. -/
abbrev clamp (a b : EReal) : EReal := max (a + b) (Ideal.ofBits .f32 0x00000000#32)

/-! ## The five stored values -/

theorem pay0_apply (x : Vec Ideal S5000x128 .f32) (w : Vec Ideal S128x128 .f32) (r : Fin 5000) (j : Fin 128) :
    k0_pay1 (F := Ideal) x w (ix2 r j) = ∑ k : Fin 128, x (ix2 r k) * w (ix2 k j) := by
  unfold k0_pay1
  exact mm128_apply _ _ r j

theorem pay1_apply (a : Vec Ideal S5000x128 .f32) (b : Vec Ideal S1x128 .f32) (w : Vec Ideal S128x128 .f32) (r : Fin 5000) (j : Fin 128) :
    k1_pay1 (F := Ideal) a b w (ix2 r j) = ∑ k : Fin 128, clamp (a (ix2 r k)) (b (ix2 (0 : Fin 1) k)) * w (ix2 k j) := by
  unfold k1_pay1
  refine (mm128_apply _ _ r j).trans (Finset.sum_congr rfl fun k _ => ?_)
  refine congrArg (· * w (ix2 k j)) ?_
  show max (shapeCast S5000x128 a shapeCasts_S5000x128_S5000x128 (ix2 r k) + broadcastTo S5000x128 (shapeCast S1x128 b shapeCasts_S1x128_S1x128) broadcasts_S1x128_S5000x128 (ix2 r k)) _ = _
  rw [shapeCast_self, shapeCast_self, biasRow128_apply]
  rfl

theorem pay2_apply (a : Vec Ideal S5000x128 .f32) (b : Vec Ideal S1x128 .f32) (w : Vec Ideal S128x128 .f32) (r : Fin 5000) (j : Fin 128) :
    k2_pay1 (F := Ideal) a b w (ix2 r j) = ∑ k : Fin 128, clamp (a (ix2 r k)) (b (ix2 (0 : Fin 1) k)) * w (ix2 k j) := by
  unfold k2_pay1
  refine (mm128_apply _ _ r j).trans (Finset.sum_congr rfl fun k _ => ?_)
  refine congrArg (· * w (ix2 k j)) ?_
  show max (shapeCast S5000x128 a shapeCasts_S5000x128_S5000x128 (ix2 r k) + broadcastTo S5000x128 (shapeCast S1x128 b shapeCasts_S1x128_S1x128) broadcasts_S1x128_S5000x128 (ix2 r k)) _ = _
  rw [shapeCast_self, shapeCast_self, biasRow128_apply]
  rfl

theorem pay3_apply (a : Vec Ideal S5000x128 .f32) (b : Vec Ideal S1x128 .f32) (r : Fin 5000) (j : Fin 128) :
    k3_pay1 (F := Ideal) a b (ix2 r j) = clamp (a (ix2 r j)) (b (ix2 (0 : Fin 1) j)) := by
  unfold k3_pay1
  show max (shapeCast S5000x128 a shapeCasts_S5000x128_S5000x128 (ix2 r j) + broadcastTo S5000x128 (shapeCast S1x128 b shapeCasts_S1x128_S1x128) broadcasts_S1x128_S5000x128 (ix2 r j)) _ = _
  rw [shapeCast_self, shapeCast_self, biasRow128_apply]
  rfl

theorem pay4_apply (h : Vec Ideal S5000x128 .f32) (w : Vec Ideal S128x40 .f32) (b : Vec Ideal S1x40 .f32) (r : Fin 5000) (j : Fin 40) :
    k4_pay1 (F := Ideal) h w b (ix2 r j) = (∑ k : Fin 128, h (ix2 r k) * w (ix2 k j)) + b (ix2 (0 : Fin 1) j) := by
  unfold k4_pay1
  refine congrArg₂ (fun p q : EReal => p + q) ((mm40_apply _ _ r j).trans (Finset.sum_congr rfl fun k _ => ?_)) ?_
  · show shapeCast S5000x128 h shapeCasts_S5000x128_S5000x128 (ix2 r k) * w (ix2 k j) = _
    rw [shapeCast_self]
  · show broadcastTo S5000x40 (shapeCast S1x40 b shapeCasts_S1x40_S1x40) broadcasts_S1x40_S5000x40 (ix2 r j) = _
    rw [shapeCast_self, biasRow40_apply]

/-! ## The same five, at any index of the block -/

theorem pay0_at (x : Vec Ideal S5000x128 .f32) (w : Vec Ideal S128x128 .f32) (j : S5000x128.Idx) :
    k0_pay1 (F := Ideal) x w j = ∑ k : Fin 128, x (ix2 (j 0) k) * w (ix2 k (j 1)) := by
  exact (congrArg (k0_pay1 (F := Ideal) x w) (eq_ix2 j)).trans (pay0_apply x w (j 0) (j 1))

theorem pay1_at (a : Vec Ideal S5000x128 .f32) (b : Vec Ideal S1x128 .f32) (w : Vec Ideal S128x128 .f32) (j : S5000x128.Idx) :
    k1_pay1 (F := Ideal) a b w j = ∑ k : Fin 128, clamp (a (ix2 (j 0) k)) (b (ix2 (0 : Fin 1) k)) * w (ix2 k (j 1)) := by
  exact (congrArg (k1_pay1 (F := Ideal) a b w) (eq_ix2 j)).trans (pay1_apply a b w (j 0) (j 1))

theorem pay2_at (a : Vec Ideal S5000x128 .f32) (b : Vec Ideal S1x128 .f32) (w : Vec Ideal S128x128 .f32) (j : S5000x128.Idx) :
    k2_pay1 (F := Ideal) a b w j = ∑ k : Fin 128, clamp (a (ix2 (j 0) k)) (b (ix2 (0 : Fin 1) k)) * w (ix2 k (j 1)) := by
  exact (congrArg (k2_pay1 (F := Ideal) a b w) (eq_ix2 j)).trans (pay2_apply a b w (j 0) (j 1))

theorem pay3_at (a : Vec Ideal S5000x128 .f32) (b : Vec Ideal S1x128 .f32) (j : S5000x128.Idx) :
    k3_pay1 (F := Ideal) a b j = clamp (a (ix2 (j 0) (j 1))) (b (ix2 (0 : Fin 1) (j 1))) :=
  (congrArg (k3_pay1 (F := Ideal) a b) (eq_ix2 j)).trans (pay3_apply a b (j 0) (j 1))

theorem pay4_at (h : Vec Ideal S5000x128 .f32) (w : Vec Ideal S128x40 .f32) (b : Vec Ideal S1x40 .f32) (j : S5000x40.Idx) :
    k4_pay1 (F := Ideal) h w b j = (∑ k : Fin 128, h (ix2 (j 0) k) * w (ix2 k (j 1))) + b (ix2 (0 : Fin 1) (j 1)) :=
  (congrArg (k4_pay1 (F := Ideal) h w b) (eq_ix2 j)).trans (pay4_apply h w b (j 0) (j 1))

/-! ## The regions' results as functions of whole arrays

Each region's ten blocks are the row blocks of ONE function of the arrays the region reads; these are those functions,
over the 50000-row arrays. -/

/-- The 50000 x 128 by 128 x 128 product: at row i, column j, the sum over k of x[i,k] * w[k,j]. -/
def product (x : S50000x128.Idx → EReal) (w : S128x128.Idx → EReal) : S50000x128.Idx → EReal :=
  fun i => ∑ k : Fin 128, x (ix2 (i 0) k) * w (ix2 k (i 1))

/-- The bias row added and the sum clamped at zero, entry by entry. -/
def biasClamp (a : S50000x128.Idx → EReal) (b : S1x128.Idx → EReal) : S50000x128.Idx → EReal :=
  fun i => clamp (a i) (b (ix2 (0 : Fin 1) (i 1)))

/-- A hidden layer's feed-forward: bias and clamp, then the product with the layer's matrix. -/
def layer (a : S50000x128.Idx → EReal) (b : S1x128.Idx → EReal) (w : S128x128.Idx → EReal) : S50000x128.Idx → EReal :=
  fun i => ∑ k : Fin 128, clamp (a (ix2 (i 0) k)) (b (ix2 (0 : Fin 1) k)) * w (ix2 k (i 1))

theorem layer_eq (a : S50000x128.Idx → EReal) (b : S1x128.Idx → EReal) (w : S128x128.Idx → EReal) :
    layer a b w = product (biasClamp a b) w := rfl

/-- The head: the 50000 x 128 by 128 x 40 product plus the head's bias row. -/
def headOut (h : S50000x128.Idx → EReal) (w : S128x40.Idx → EReal) (b : S1x40.Idx → EReal) : S50000x40.Idx → EReal :=
  fun i => (∑ k : Fin 128, h (ix2 (i 0) k) * w (ix2 k (i 1))) + b (ix2 (0 : Fin 1) (i 1))

end Cert.KernelIdeal.Body

end
-- ==== Proof.KHost.lean ====
/-
  The host side of the program between the five regions, read as values.

  Before the first region the host builds, from the edge list e, the source and destination index vectors (each
  edge row followed by the self loops 0 .. 49999), the symmetric normalisation (the reciprocal square root of each
  destination's edge count, gathered at both ends of every edge and multiplied) and the four bias vectors laid out
  as one-row matrices. After each of the first three regions it aggregates the region's result h over the edges:
  gather the rows of h at the (wrapped) sources, scale each by its edge's normalisation, and add them up at the
  destinations. That gather, scale and scatter chain is the same text after every region; it is named once here
  (`aggregate`) and never opened. Each stretch is read over ANY buffer contents U it may start from, so that nothing
  of the contents is looked at; the buffers a stretch does not write keep their contents.
-/
import proofs.«177000_j57277683859885_1_alg».proof.Proof.Gen.KernelIdeal.Launch
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-! ## The chain's pieces -/

/-- A negative index counts from the end of the 50000 nodes: 50000 is added to it. The result is laid out as a column. -/
def wrapIdx (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Sum over the edges into the destination rows: rows of h gathered at the sources, each scaled by its edge's
    normalisation, added up at the destinations into a zero array. -/
def aggregate (src dst : (⟨S850000, .i32⟩ : BufTy).Contents (Elt F)) (norm : (⟨S850000, .f32⟩ : BufTy).Contents (Elt F))
    (h : (⟨S50000x128, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (mulf (Host.gather gather_S50000x128_S850000x1_S850000x128_1_0_n_n_0_1_1128 h (wrapIdx src))
      (broadcastInDim S850000x128 ![0, 1] bcast_S850000x1_S850000x128_0_1
        (broadcastInDim S850000x1 ![0] bcast_S850000_S850000x1_0 norm)))

/-- Row r of the edge list followed by the self loops. -/
def endsOf (r : Fin 2) (e : (⟨S2x800000, .i32⟩ : BufTy).Contents (Elt F)) : (⟨S850000, .i32⟩ : BufTy).Contents (Elt F) :=
  match r with
  | ⟨0, _⟩ => concatenate S850000 0 [⟨S800000, shapeCast _ (extractStridedSlice S1x800000 ![0, 0] e slices_S2x800000_S1x800000_0_0) shapeCasts_S1x800000_S800000⟩, ⟨S50000, iotaInDim S50000 32 0⟩] concatenates_S800000_S50000_S850000_d0
  | ⟨1, _⟩ => concatenate S850000 0 [⟨S800000, shapeCast _ (extractStridedSlice S1x800000 ![1, 0] e slices_S2x800000_S1x800000_1_0) shapeCasts_S1x800000_S800000⟩, ⟨S50000, iotaInDim S50000 32 0⟩] concatenates_S800000_S50000_S850000_d0

/-- The sources, then the self loops. -/
abbrev srcOf (e : (⟨S2x800000, .i32⟩ : BufTy).Contents (Elt F)) := endsOf (F := F) 0 e
/-- The destinations, then the self loops. -/
abbrev dstOf (e : (⟨S2x800000, .i32⟩ : BufTy).Contents (Elt F)) := endsOf (F := F) 1 e

/-- The reciprocal square root of each node's count of incoming edges (self loop included). -/
def invSqrtDeg (e : (⟨S2x800000, .i32⟩ : BufTy).Contents (Elt F)) : (⟨S50000, .f32⟩ : BufTy).Contents (Elt F) :=
  Host.rsqrt (Host.scatterAdd scatter_S50000_S850000x1_S850000_n_0_0_1
    (broadcastInDim S50000 ![] bcast_S_S50000 (constant S_ .f32 0x00000000#32))
    (broadcastInDim S850000x1 ![0] bcast_S850000_S850000x1_0 (dstOf e))
    (broadcastInDim S850000 ![] bcast_S_S850000 (constant S_ .f32 0x3F800000#32)))

/-- Each edge's normalisation: the two ends' reciprocal square roots multiplied. -/
def normOf (e : (⟨S2x800000, .i32⟩ : BufTy).Contents (Elt F)) : (⟨S850000, .f32⟩ : BufTy).Contents (Elt F) :=
  mulf (Host.gather gather_S50000_S850000x1_S850000_n_0_n_n_0_1_1 (invSqrtDeg e) (wrapIdx (srcOf e)))
    (Host.gather gather_S50000_S850000x1_S850000_n_0_n_n_0_1_1 (invSqrtDeg e) (wrapIdx (dstOf e)))

/-- A 128-vector laid out as one row. -/
def row128 (b : (⟨S128, .f32⟩ : BufTy).Contents (Elt F)) : (⟨S1x128, .f32⟩ : BufTy).Contents (Elt F) :=
  shapeCast _ b shapeCasts_S128_S1x128
/-- A 40-vector laid out as one row. -/
def row40 (b : (⟨S40, .f32⟩ : BufTy).Contents (Elt F)) : (⟨S1x40, .f32⟩ : BufTy).Contents (Elt F) :=
  shapeCast _ b shapeCasts_S40_S1x40

/-! ## The stretch before the first region -/

set_option maxHeartbeats 8000000 in
theorem pre_src (U : Valuation τ sig (Elt F)) :
    StableHlo.after (hostOps0 (F := F)) U (Proc.devRef .tc main_v3) = srcOf (U (Proc.devRef .tc main_arg1)) := by
  after_results_simp <;> rfl
set_option maxHeartbeats 8000000 in
theorem pre_dst (U : Valuation τ sig (Elt F)) :
    StableHlo.after (hostOps0 (F := F)) U (Proc.devRef .tc main_v6) = dstOf (U (Proc.devRef .tc main_arg1)) := by
  after_results_simp <;> rfl
set_option maxHeartbeats 8000000 in
theorem pre_norm (U : Valuation τ sig (Elt F)) :
    StableHlo.after (hostOps0 (F := F)) U (Proc.devRef .tc main_v26) = normOf (U (Proc.devRef .tc main_arg1)) := by
  after_results_simp <;> rfl
set_option maxHeartbeats 8000000 in
theorem pre_bias1 (U : Valuation τ sig (Elt F)) :
    StableHlo.after (hostOps0 (F := F)) U (Proc.devRef .tc main_v27) = row128 (U (Proc.devRef .tc main_arg3)) := by
  after_results_simp <;> rfl
set_option maxHeartbeats 8000000 in
theorem pre_bias2 (U : Valuation τ sig (Elt F)) :
    StableHlo.after (hostOps0 (F := F)) U (Proc.devRef .tc main_v28) = row128 (U (Proc.devRef .tc main_arg5)) := by
  after_results_simp <;> rfl
set_option maxHeartbeats 8000000 in
theorem pre_bias3 (U : Valuation τ sig (Elt F)) :
    StableHlo.after (hostOps0 (F := F)) U (Proc.devRef .tc main_v29) = row128 (U (Proc.devRef .tc main_arg7)) := by
  after_results_simp <;> rfl
set_option maxHeartbeats 8000000 in
theorem pre_headBias (U : Valuation τ sig (Elt F)) :
    StableHlo.after (hostOps0 (F := F)) U (Proc.devRef .tc main_v30) = row40 (U (Proc.devRef .tc main_arg9)) := by
  after_results_simp <;> rfl

/-! ## The three aggregations -/

set_option maxHeartbeats 8000000 in
theorem stretch1 (U : Valuation τ sig (Elt F)) :
    StableHlo.after (hostOps1 (F := F)) U (Proc.devRef .tc main_v44)
      = aggregate (U (Proc.devRef .tc main_v3)) (U (Proc.devRef .tc main_v6)) (U (Proc.devRef .tc main_v26)) (U (Proc.devRef .tc main_v31)) := by
  after_results_simp <;> rfl
set_option maxHeartbeats 8000000 in
theorem stretch2 (U : Valuation τ sig (Elt F)) :
    StableHlo.after (hostOps2 (F := F)) U (Proc.devRef .tc main_v58)
      = aggregate (U (Proc.devRef .tc main_v3)) (U (Proc.devRef .tc main_v6)) (U (Proc.devRef .tc main_v26)) (U (Proc.devRef .tc main_v45)) := by
  after_results_simp <;> rfl
set_option maxHeartbeats 8000000 in
theorem stretch3 (U : Valuation τ sig (Elt F)) :
    StableHlo.after (hostOps3 (F := F)) U (Proc.devRef .tc main_v72)
      = aggregate (U (Proc.devRef .tc main_v3)) (U (Proc.devRef .tc main_v6)) (U (Proc.devRef .tc main_v26)) (U (Proc.devRef .tc main_v59)) := by
  after_results_simp <;> rfl

/-! ## What a stretch does not write, it keeps -/

theorem keep0_arg0 (U : Valuation τ sig (Elt F)) : StableHlo.after (hostOps0 (F := F)) U (Proc.devRef .tc main_arg0) = U (Proc.devRef .tc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg2 (U : Valuation τ sig (Elt F)) : StableHlo.after (hostOps0 (F := F)) U (Proc.devRef .tc main_arg2) = U (Proc.devRef .tc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg4 (U : Valuation τ sig (Elt F)) : StableHlo.after (hostOps0 (F := F)) U (Proc.devRef .tc main_arg4) = U (Proc.devRef .tc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg6 (U : Valuation τ sig (Elt F)) : StableHlo.after (hostOps0 (F := F)) U (Proc.devRef .tc main_arg6) = U (Proc.devRef .tc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg8 (U : Valuation τ sig (Elt F)) : StableHlo.after (hostOps0 (F := F)) U (Proc.devRef .tc main_arg8) = U (Proc.devRef .tc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v3 (U : Valuation τ sig (Elt F)) : StableHlo.after (hostOps1 (F := F)) U (Proc.devRef .tc main_v3) = U (Proc.devRef .tc main_v3) :=
  StableHlo.after_of_forall_not_mem (b := Proc.devRef .tc main_v3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v6 (U : Valuation τ sig (Elt F)) : StableHlo.after (hostOps1 (F := F)) U (Proc.devRef .tc main_v6) = U (Proc.devRef .tc main_v6) :=
  StableHlo.after_of_forall_not_mem (b := Proc.devRef .tc main_v6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v26 (U : Valuation τ sig (Elt F)) : StableHlo.after (hostOps1 (F := F)) U (Proc.devRef .tc main_v26) = U (Proc.devRef .tc main_v26) :=
  StableHlo.after_of_forall_not_mem (b := Proc.devRef .tc main_v26) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v27 (U : Valuation τ sig (Elt F)) : StableHlo.after (hostOps1 (F := F)) U (Proc.devRef .tc main_v27) = U (Proc.devRef .tc main_v27) :=
  StableHlo.after_of_forall_not_mem (b := Proc.devRef .tc main_v27) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg4 (U : Valuation τ sig (Elt F)) : StableHlo.after (hostOps1 (F := F)) U (Proc.devRef .tc main_arg4) = U (Proc.devRef .tc main_arg4) :=
  StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v28 (U : Valuation τ sig (Elt F)) : StableHlo.after (hostOps1 (F := F)) U (Proc.devRef .tc main_v28) = U (Proc.devRef .tc main_v28) :=
  StableHlo.after_of_forall_not_mem (b := Proc.devRef .tc main_v28) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg6 (U : Valuation τ sig (Elt F)) : StableHlo.after (hostOps1 (F := F)) U (Proc.devRef .tc main_arg6) = U (Proc.devRef .tc main_arg6) :=
  StableHlo.after_of_forall_not_mem (b := Proc.devRef .tc main_arg6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v29 (U : Valuation τ sig (Elt F)) : StableHlo.after (hostOps1 (F := F)) U (Proc.devRef .tc main_v29) = U (Proc.devRef .tc main_v29) :=
  StableHlo.after_of_forall_not_mem (b := Proc.devRef .tc main_v29) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg8 (U : Valuation τ sig (Elt F)) : StableHlo.after (hostOps1 (F := F)) U (Proc.devRef .tc main_arg8) = U (Proc.devRef .tc main_arg8) :=
  StableHlo.after_of_forall_not_mem (b := Proc.devRef .tc main_arg8) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v30 (U : Valuation τ sig (Elt F)) : StableHlo.after (hostOps1 (F := F)) U (Proc.devRef .tc main_v30) = U (Proc.devRef .tc main_v30) :=
  StableHlo.after_of_forall_not_mem (b := Proc.devRef .tc main_v30) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v3 (U : Valuation τ sig (Elt F)) : StableHlo.after (hostOps2 (F := F)) U (Proc.devRef .tc main_v3) = U (Proc.devRef .tc main_v3) :=
  StableHlo.after_of_forall_not_mem (b := Proc.devRef .tc main_v3) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v6 (U : Valuation τ sig (Elt F)) : StableHlo.after (hostOps2 (F := F)) U (Proc.devRef .tc main_v6) = U (Proc.devRef .tc main_v6) :=
  StableHlo.after_of_forall_not_mem (b := Proc.devRef .tc main_v6) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v26 (U : Valuation τ sig (Elt F)) : StableHlo.after (hostOps2 (F := F)) U (Proc.devRef .tc main_v26) = U (Proc.devRef .tc main_v26) :=
  StableHlo.after_of_forall_not_mem (b := Proc.devRef .tc main_v26) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v28 (U : Valuation τ sig (Elt F)) : StableHlo.after (hostOps2 (F := F)) U (Proc.devRef .tc main_v28) = U (Proc.devRef .tc main_v28) :=
  StableHlo.after_of_forall_not_mem (b := Proc.devRef .tc main_v28) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg6 (U : Valuation τ sig (Elt F)) : StableHlo.after (hostOps2 (F := F)) U (Proc.devRef .tc main_arg6) = U (Proc.devRef .tc main_arg6) :=
  StableHlo.after_of_forall_not_mem (b := Proc.devRef .tc main_arg6) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v29 (U : Valuation τ sig (Elt F)) : StableHlo.after (hostOps2 (F := F)) U (Proc.devRef .tc main_v29) = U (Proc.devRef .tc main_v29) :=
  StableHlo.after_of_forall_not_mem (b := Proc.devRef .tc main_v29) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg8 (U : Valuation τ sig (Elt F)) : StableHlo.after (hostOps2 (F := F)) U (Proc.devRef .tc main_arg8) = U (Proc.devRef .tc main_arg8) :=
  StableHlo.after_of_forall_not_mem (b := Proc.devRef .tc main_arg8) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v30 (U : Valuation τ sig (Elt F)) : StableHlo.after (hostOps2 (F := F)) U (Proc.devRef .tc main_v30) = U (Proc.devRef .tc main_v30) :=
  StableHlo.after_of_forall_not_mem (b := Proc.devRef .tc main_v30) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v29 (U : Valuation τ sig (Elt F)) : StableHlo.after (hostOps3 (F := F)) U (Proc.devRef .tc main_v29) = U (Proc.devRef .tc main_v29) :=
  StableHlo.after_of_forall_not_mem (b := Proc.devRef .tc main_v29) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg8 (U : Valuation τ sig (Elt F)) : StableHlo.after (hostOps3 (F := F)) U (Proc.devRef .tc main_arg8) = U (Proc.devRef .tc main_arg8) :=
  StableHlo.after_of_forall_not_mem (b := Proc.devRef .tc main_arg8) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v30 (U : Valuation τ sig (Elt F)) : StableHlo.after (hostOps3 (F := F)) U (Proc.devRef .tc main_v30) = U (Proc.devRef .tc main_v30) :=
  StableHlo.after_of_forall_not_mem (b := Proc.devRef .tc main_v30) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Host

end
-- ==== Proof.KSpec.lean ====
/-
  The program's two results as functions of its ten argument arrays.

  Three rounds of: multiply by the layer's matrix, aggregate over the edges, add the layer's bias and clamp at zero
  (the next round's product is fused with the bias and clamp of the one before); the hidden state is the third
  round's clamped sum, and the head multiplies it by the head matrix and adds the head bias.
-/
import proofs.«177000_j57277683859885_1_alg».proof.Proof.KBody
import proofs.«177000_j57277683859885_1_alg».proof.Proof.KHost

noncomputable section

namespace Cert.KernelIdeal.Spec

open Cert.KernelIdeal Cert.KernelIdeal.Body Cert.KernelIdeal.Host Idealize.ShloMosaic

/-- One aggregation over the graph the edge list e describes. -/
abbrev agg (e : (⟨S2x800000, .i32⟩ : BufTy).Contents (Elt Ideal)) (h : S50000x128.Idx → EReal) : S50000x128.Idx → EReal :=
  aggregate (F := Ideal) (srcOf e) (dstOf e) (normOf e) h

/-- The hidden state after the three layers. -/
def hidden (x : S50000x128.Idx → EReal) (e : (⟨S2x800000, .i32⟩ : BufTy).Contents (Elt Ideal))
    (w1 : S128x128.Idx → EReal) (b1 : (⟨S128, .f32⟩ : BufTy).Contents (Elt Ideal))
    (w2 : S128x128.Idx → EReal) (b2 : (⟨S128, .f32⟩ : BufTy).Contents (Elt Ideal))
    (w3 : S128x128.Idx → EReal) (b3 : (⟨S128, .f32⟩ : BufTy).Contents (Elt Ideal)) : S50000x128.Idx → EReal :=
  biasClamp (agg e (layer (agg e (layer (agg e (product x w1)) (row128 b1) w2)) (row128 b2) w3)) (row128 b3)

/-- The head's 40 scores per node. -/
def scores (x : S50000x128.Idx → EReal) (e : (⟨S2x800000, .i32⟩ : BufTy).Contents (Elt Ideal))
    (w1 : S128x128.Idx → EReal) (b1 : (⟨S128, .f32⟩ : BufTy).Contents (Elt Ideal))
    (w2 : S128x128.Idx → EReal) (b2 : (⟨S128, .f32⟩ : BufTy).Contents (Elt Ideal))
    (w3 : S128x128.Idx → EReal) (b3 : (⟨S128, .f32⟩ : BufTy).Contents (Elt Ideal))
    (wh : S128x40.Idx → EReal) (bh : (⟨S40, .f32⟩ : BufTy).Contents (Elt Ideal)) : S50000x40.Idx → EReal :=
  headOut (hidden x e w1 b1 w2 b2 w3 b3) wh (row40 bh)

end Cert.KernelIdeal.Spec

end
-- ==== Proof.KRegion0.lean ====
/-
  The first layer's matrix product, from blocks to the whole array.

  Point t of the ten stages rows 5000 t .. 5000 t + 4999 of the node features and the whole 128 x 128 weight matrix,
  and writes back the same rows of the product. Row r of a block depends on that row of the features only, so every
  block is the restriction of ONE function of the two arrays: at row i and column j, the sum over k of x[i,k] * w[k,j].
  The ten blocks tile the 50000 rows, so the result array ends holding the whole product.
-/
import proofs.«177000_j57277683859885_1_alg».proof.Proof.Gen.KernelIdeal.Frame
import proofs.«177000_j57277683859885_1_alg».proof.Proof.KBody

set_option maxRecDepth 16384

noncomputable section

namespace Cert.KernelIdeal.Region0

open Cert.KernelIdeal Cert.KernelIdeal.Gen Cert.KernelIdeal.Body Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The array window 0 reads, at its literal type. -/
abbrev featArr (c : Dev nD) : S50000x128.Idx → EReal := V c main_arg0
/-- The array window 1 reads, at its literal type. -/
abbrev weightArr (c : Dev nD) : S128x128.Idx → EReal := V c main_arg2

theorem origin2 : (![0, 0] : Fin 2 → Nat) = fun _ => 0 := funext fun a => by fin_cases a <;> rfl

/-- The printed index maps over the ten points: a row window sits at block t, a window staged whole at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of ONE function of the arrays the region reads. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  obtain ⟨e0, e1, e2, e3, e4, e5⟩ := index_facts t
  funext j
  refine (pay0_at (iblk0 V c 0 t) (iblk0 V c 1 t) j).trans ?_
  show _ = ∑ k : Fin 128, featArr V c (ix2 ((((cfg0.win 2).blk t).view.emb j) 0) k) * weightArr V c (ix2 k ((((cfg0.win 2).blk t).view.emb j) 1))
  refine Finset.sum_congr rfl fun k _ => ?_
  show featArr V c (((cfg0.win 0).blk t).view.emb (ix2 (j 0) k)) * weightArr V c (((cfg0.win 1).blk t).view.emb (ix2 k (j 1)))
     = featArr V c (ix2 ((((cfg0.win 2).blk t).view.emb j) 0) k) * weightArr V c (ix2 k ((((cfg0.win 2).blk t).view.emb j) 1))
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1] <;> rfl

/-- An index of the result array is in point t's block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every row lies in the block of the point its number divided by 5000 names: the ten blocks tile the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := by show (i 0).val / 5000 < grid0.N; rw [N_0]; omega
  refine ⟨⟨(i 0).val / 5000, hN⟩, flush0_2 _, ?_⟩
  rw [mem_blk]
  obtain ⟨e0, e1, e2, e3, e4, e5⟩ := index_facts ⟨(i 0).val / 5000, hN⟩
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; rw [e4]; show (i 0).val / 5000 * 5000 ≤ (i 0).val ∧ (i 0).val < (i 0).val / 5000 * 5000 + 5000; omega
  | ⟨1, _⟩ => show win0_2.index ⟨(i 0).val / 5000, hN⟩ (1 : Fin 2) * 128 ≤ (i 1).val ∧ (i 1).val < win0_2.index ⟨(i 0).val / 5000, hN⟩ (1 : Fin 2) * 128 + 128; rw [e5]; omega

/-- THE RESULT ARRAY after the region. -/
theorem final (c : Dev nD) : (dat0 V c).arrAt 2 cfg0.N = product (V c main_arg0) (V c main_arg2) :=
  (dat0 V c).arrAt_eq_of_cover 2 (product (V c main_arg0) (V c main_arg2)) (fun t _ => flushed_eq V c t) cover

end Cert.KernelIdeal.Region0

end
-- ==== Proof.KRegion1.lean ====
/-
  The second layer's fused bias, clamp and matrix product, from blocks to the whole array.

  Point t of the ten stages rows 5000 t .. 5000 t + 4999 of the aggregated array, the whole one-row bias and the whole
  128 x 128 weight matrix, and writes back the same rows of the result. Every block is the restriction of ONE function
  of the three arrays: at row i and column j, the sum over k of max (a[i,k] + b[0,k]) 0 * w[k,j]. The ten blocks tile
  the 50000 rows, so the result array ends holding that function.
-/
import proofs.«177000_j57277683859885_1_alg».proof.Proof.Gen.KernelIdeal.Frame
import proofs.«177000_j57277683859885_1_alg».proof.Proof.KBody

set_option maxRecDepth 16384

noncomputable section

namespace Cert.KernelIdeal.Region1

open Cert.KernelIdeal Cert.KernelIdeal.Gen Cert.KernelIdeal.Body Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The array window 0 reads, at its literal type. -/
abbrev aggArr (c : Dev nD) : S50000x128.Idx → EReal := V c main_v44
/-- The array window 1 reads, at its literal type. -/
abbrev biasArr (c : Dev nD) : S1x128.Idx → EReal := V c main_v27
/-- The array window 2 reads, at its literal type. -/
abbrev weightArr (c : Dev nD) : S128x128.Idx → EReal := V c main_arg4

theorem origin2 : (![0, 0] : Fin 2 → Nat) = fun _ => 0 := funext fun a => by fin_cases a <;> rfl

/-- The printed index maps over the ten points: a row window sits at block t, a window staged whole at block 0. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of ONE function of the arrays the region reads. -/
theorem flushed_eq (c : Dev nD) (t : Fin cfg1.N) :
    (dat1 V c).flushed 3 t = ((cfg1.win 3).blk t).view.read (Elt Ideal) (layer (V c main_v44) (V c main_v27) (V c main_arg4)) := by
  show (cfg1.win 3).cut (grid1.coords t) ((dat1 V c).after 3 t) = _
  rw [after1_3]
  unfold out1_3
  rw [View.canon_unit_zero origin2]
  simp only [View.ld_unit_zero (S := S5000x128) origin2, View.ld_unit_zero (S := S1x128) origin2, View.ld_unit_zero (S := S128x128) origin2]
  obtain ⟨e0, e1, e2, e3, e4, e5, e6, e7⟩ := index_facts t
  funext j
  refine (pay1_at (iblk1 V c 0 t) (iblk1 V c 1 t) (iblk1 V c 2 t) j).trans ?_
  show _ = ∑ k : Fin 128, clamp (aggArr V c (ix2 ((((cfg1.win 3).blk t).view.emb j) 0) k)) (biasArr V c (ix2 (0 : Fin 1) k)) * weightArr V c (ix2 k ((((cfg1.win 3).blk t).view.emb j) 1))
  refine Finset.sum_congr rfl fun k _ => ?_
  show clamp (aggArr V c (((cfg1.win 0).blk t).view.emb (ix2 (j 0) k))) (biasArr V c (((cfg1.win 1).blk t).view.emb (ix2 (0 : Fin 1) k))) * weightArr V c (((cfg1.win 2).blk t).view.emb (ix2 k (j 1)))
     = clamp (aggArr V c (ix2 ((((cfg1.win 3).blk t).view.emb j) 0) k)) (biasArr V c (ix2 (0 : Fin 1) k)) * weightArr V c (ix2 k ((((cfg1.win 3).blk t).view.emb j) 1))
  have h0 : ((cfg1.win 0).blk t).view.emb (ix2 (j 0) k) = ix2 ((((cfg1.win 3).blk t).view.emb j) 0) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (ix2 k (j 1)) = ix2 k ((((cfg1.win 3).blk t).view.emb j) 1) := by
    funext a; apply Fin.ext
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  rw [h0, h1, h2] <;> rfl

/-- An index of the result array is in point t's block iff each coordinate is in the block's range. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Every row lies in the block of the point its number divided by 5000 names: the ten blocks tile the array. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : (i 0).val / 5000 < cfg1.N := by show (i 0).val / 5000 < grid1.N; rw [N_1]; omega
  refine ⟨⟨(i 0).val / 5000, hN⟩, flush1_3 _, ?_⟩
  rw [mem_blk]
  obtain ⟨e0, e1, e2, e3, e4, e5, e6, e7⟩ := index_facts ⟨(i 0).val / 5000, hN⟩
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win1_3.index ⟨(i 0).val / 5000, hN⟩ (1 : Fin 2) * 128 ≤ (i 1).val ∧ (i 1).val < win1_3.index ⟨(i 0).val / 5000, hN⟩ (1 : Fin 2) * 128 + 128; rw [e7]; omega

/-- THE RESULT ARRAY after the region. -/
theorem final (c : Dev nD) : (dat1 V c).arrAt 3 cfg1.N = layer (V c main_v44) (V c main_v27) (V c main_arg4) :=
  (dat1 V c).arrAt_eq_of_cover 3 (layer (V c main_v44) (V c main_v27) (V c main_arg4)) (fun t _ => flushed_eq V c t) cover

end Cert.KernelIdeal.Region1

end
-- ==== Proof.KRegion2.lean ====
/-
  The third layer's fused bias, clamp and matrix product, from blocks to the whole array.

  Point t of the ten stages rows 5000 t .. 5000 t + 4999 of the aggregated array, the whole one-row bias and the whole
  128 x 128 weight matrix, and writes back the same rows of the result. Every block is the restriction of ONE function
  of the three arrays: at row i and column j, the sum over k of max (a[i,k] + b[0,k]) 0 * w[k,j]. The ten blocks tile
  the 50000 rows, so the result array ends holding that function.
-/
import proofs.«177000_j57277683859885_1_alg».proof.Proof.Gen.KernelIdeal.Frame
import proofs.«177000_j57277683859885_1_alg».proof.Proof.KBody

set_option maxRecDepth 16384

noncomputable section

namespace Cert.KernelIdeal.Region2

open Cert.KernelIdeal Cert.KernelIdeal.Gen Cert.KernelIdeal.Body Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The array window 0 reads, at its literal type. -/
abbrev aggArr (c : Dev nD) : S50000x128.Idx → EReal := V c main_v58
/-- The array window 1 reads, at its literal type. -/
abbrev biasArr (c : Dev nD) : S1x128.Idx → EReal := V c main_v28
/-- The array window 2 reads, at its literal type. -/
abbrev weightArr (c : Dev nD) : S128x128.Idx → EReal := V c main_arg6

theorem origin2 : (![0, 0] : Fin 2 → Nat) = fun _ => 0 := funext fun a => by fin_cases a <;> rfl

/-- The printed index maps over the ten points: a row window sits at block t, a window staged whole at block 0. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of ONE function of the arrays the region reads. -/
theorem flushed_eq (c : Dev nD) (t : Fin cfg2.N) :
    (dat2 V c).flushed 3 t = ((cfg2.win 3).blk t).view.read (Elt Ideal) (layer (V c main_v58) (V c main_v28) (V c main_arg6)) := by
  show (cfg2.win 3).cut (grid2.coords t) ((dat2 V c).after 3 t) = _
  rw [after2_3]
  unfold out2_3
  rw [View.canon_unit_zero origin2]
  simp only [View.ld_unit_zero (S := S5000x128) origin2, View.ld_unit_zero (S := S1x128) origin2, View.ld_unit_zero (S := S128x128) origin2]
  obtain ⟨e0, e1, e2, e3, e4, e5, e6, e7⟩ := index_facts t
  funext j
  refine (pay2_at (iblk2 V c 0 t) (iblk2 V c 1 t) (iblk2 V c 2 t) j).trans ?_
  show _ = ∑ k : Fin 128, clamp (aggArr V c (ix2 ((((cfg2.win 3).blk t).view.emb j) 0) k)) (biasArr V c (ix2 (0 : Fin 1) k)) * weightArr V c (ix2 k ((((cfg2.win 3).blk t).view.emb j) 1))
  refine Finset.sum_congr rfl fun k _ => ?_
  show clamp (aggArr V c (((cfg2.win 0).blk t).view.emb (ix2 (j 0) k))) (biasArr V c (((cfg2.win 1).blk t).view.emb (ix2 (0 : Fin 1) k))) * weightArr V c (((cfg2.win 2).blk t).view.emb (ix2 k (j 1)))
     = clamp (aggArr V c (ix2 ((((cfg2.win 3).blk t).view.emb j) 0) k)) (biasArr V c (ix2 (0 : Fin 1) k)) * weightArr V c (ix2 k ((((cfg2.win 3).blk t).view.emb j) 1))
  have h0 : ((cfg2.win 0).blk t).view.emb (ix2 (j 0) k) = ix2 ((((cfg2.win 3).blk t).view.emb j) 0) k := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : ((cfg2.win 2).blk t).view.emb (ix2 k (j 1)) = ix2 k ((((cfg2.win 3).blk t).view.emb j) 1) := by
    funext a; apply Fin.ext
    match a with
    | ⟨0, _⟩ => show win2_2.index t (0 : Fin 2) * 128 + 1 * k.val = k.val; omega
    | ⟨1, _⟩ => show win2_2.index t (1 : Fin 2) * 128 + 1 * (j 1).val = win2_3.index t (1 : Fin 2) * 128 + 1 * (j 1).val; omega
  rw [h0, h1, h2] <;> rfl

/-- An index of the result array is in point t's block iff each coordinate is in the block's range. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v59).slice (win2_3.rect t)).set ↔ _
  rw [View.set_slice_whole, Rect.mem_set_unit]
  exact Iff.rfl

/-- Every row lies in the block of the point its number divided by 5000 names: the ten blocks tile the array. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : (i 0).val / 5000 < cfg2.N := by show (i 0).val / 5000 < grid2.N; rw [N_2]; omega
  refine ⟨⟨(i 0).val / 5000, hN⟩, flush2_3 _, ?_⟩
  rw [mem_blk]
  obtain ⟨e0, e1, e2, e3, e4, e5, e6, e7⟩ := index_facts ⟨(i 0).val / 5000, hN⟩
  intro a
  match a with
  | ⟨0, _⟩ => show win2_3.index ⟨(i 0).val / 5000, hN⟩ (0 : Fin 2) * 5000 ≤ (i 0).val ∧ (i 0).val < win2_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win2_3.index ⟨(i 0).val / 5000, hN⟩ (1 : Fin 2) * 128 ≤ (i 1).val ∧ (i 1).val < win2_3.index ⟨(i 0).val / 5000, hN⟩ (1 : Fin 2) * 128 + 128; rw [e7]; omega

/-- THE RESULT ARRAY after the region. -/
theorem final (c : Dev nD) : (dat2 V c).arrAt 3 cfg2.N = layer (V c main_v58) (V c main_v28) (V c main_arg6) :=
  (dat2 V c).arrAt_eq_of_cover 3 (layer (V c main_v58) (V c main_v28) (V c main_arg6)) (fun t _ => flushed_eq V c t) cover

end Cert.KernelIdeal.Region2

end
-- ==== Proof.KRegion3.lean ====
/-
  The last hidden state's region, from blocks to the whole array.

  Point t of the ten stages rows 5000 t .. 5000 t + 4999 of the aggregated array and the whole one-row bias, and writes
  back the same rows of the result. Every block is the restriction of ONE function of the two arrays: at row i and
  column j, max (a[i,j] + b[0,j]) 0. The ten blocks tile the 50000 rows (row i lies in the block of point i / 5000), so
  the result array ends holding that function.
-/
import proofs.«177000_j57277683859885_1_alg».proof.Proof.Gen.KernelIdeal.Frame
import proofs.«177000_j57277683859885_1_alg».proof.Proof.KBody

set_option maxRecDepth 16384

noncomputable section

namespace Cert.KernelIdeal.Region3

open Cert.KernelIdeal Cert.KernelIdeal.Gen Cert.KernelIdeal.Body Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the ten points: a row window sits at block t, a window staged whole at block 0. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of ONE function of the arrays the region reads. -/
theorem flushed_eq (c : Dev nD) (t : Fin cfg3.N) :
    (dat3 V c).flushed 2 t = ((cfg3.win 2).blk t).view.read (Elt Ideal) (biasClamp (V c main_v72) (V c main_v29)) := by
  show (cfg3.win 2).cut (grid3.coords t) ((dat3 V c).after 2 t) = _
  rw [after3_2]
  unfold out3_2
  rw [View.canon_unit_zero origin2]
  simp only [View.ld_unit_zero (S := S5000x128) origin2, View.ld_unit_zero (S := S1x128) origin2]
  obtain ⟨e0, e1, e2, e3, e4, e5⟩ := index_facts t
  funext j
  refine (pay3_at (iblk3 V c 0 t) (iblk3 V c 1 t) j).trans ?_
  show clamp (V c main_v72 (((cfg3.win 0).blk t).view.emb (ix2 (j 0) (j 1)))) (V c main_v29 (((cfg3.win 1).blk t).view.emb (ix2 (0 : Fin 1) (j 1))))
     = clamp (V c main_v72 (((cfg3.win 2).blk t).view.emb j)) (V c main_v29 (ix2 (0 : Fin 1) ((((cfg3.win 2).blk t).view.emb j) 1)))
  have h0 : ((cfg3.win 0).blk t).view.emb (ix2 (j 0) (j 1)) = (((cfg3.win 2).blk t).view.emb j) := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [h0, h1] <;> rfl

/-- An index of the result array is in point t's block iff each coordinate is in the block's range. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v73).slice (win3_2.rect t)).set ↔ _
  rw [View.set_slice_whole, Rect.mem_set_unit]
  exact Iff.rfl

/-- Every row lies in the block of the point its number divided by 5000 names: the ten blocks tile the array. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : (i 0).val / 5000 < cfg3.N := by show (i 0).val / 5000 < grid3.N; rw [N_3]; omega
  refine ⟨⟨(i 0).val / 5000, hN⟩, flush3_2 _, ?_⟩
  rw [mem_blk]
  obtain ⟨e0, e1, e2, e3, e4, e5⟩ := index_facts ⟨(i 0).val / 5000, hN⟩
  intro a
  match a with
  | ⟨0, _⟩ => show win3_2.index ⟨(i 0).val / 5000, hN⟩ (0 : Fin 2) * 5000 ≤ (i 0).val ∧ (i 0).val < win3_2.index ⟨(i 0).val / 5000, hN⟩ (0 : Fin 2) * 5000 + 5000; rw [e4]; show (i 0).val / 5000 * 5000 ≤ (i 0).val ∧ (i 0).val < (i 0).val / 5000 * 5000 + 5000; omega
  | ⟨1, _⟩ => show win3_2.index ⟨(i 0).val / 5000, hN⟩ (1 : Fin 2) * 128 ≤ (i 1).val ∧ (i 1).val < win3_2.index ⟨(i 0).val / 5000, hN⟩ (1 : Fin 2) * 128 + 128; rw [e5]; omega

/-- THE RESULT ARRAY after the region. -/
theorem final (c : Dev nD) : (dat3 V c).arrAt 2 cfg3.N = biasClamp (V c main_v72) (V c main_v29) :=
  (dat3 V c).arrAt_eq_of_cover 2 (biasClamp (V c main_v72) (V c main_v29)) (fun t _ => flushed_eq V c t) cover

end Cert.KernelIdeal.Region3

end
-- ==== Proof.KRegion4.lean ====
/-
  The classifier head, from blocks to the whole array.

  Point t of the ten stages rows 5000 t .. 5000 t + 4999 of the hidden state, the whole 128 x 40 head matrix and the
  whole one-row head bias, and writes back the same rows of the 50000 x 40 result. Every block is the restriction of
  ONE function of the three arrays: at row i and column j, (the sum over k of h[i,k] * w[k,j]) + b[0,j]. The ten blocks
  tile the 50000 rows, so the result array ends holding that function.
-/
import proofs.«177000_j57277683859885_1_alg».proof.Proof.Gen.KernelIdeal.Frame
import proofs.«177000_j57277683859885_1_alg».proof.Proof.KBody

set_option maxRecDepth 16384

noncomputable section

namespace Cert.KernelIdeal.Region4

open Cert.KernelIdeal Cert.KernelIdeal.Gen Cert.KernelIdeal.Body Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The array window 0 reads, at its literal type. -/
abbrev hiddenArr (c : Dev nD) : S50000x128.Idx → EReal := V c main_v73
/-- The array window 1 reads, at its literal type. -/
abbrev headArr (c : Dev nD) : S128x40.Idx → EReal := V c main_arg8
/-- The array window 2 reads, at its literal type. -/
abbrev headBiasArr (c : Dev nD) : S1x40.Idx → EReal := V c main_v30

theorem origin2 : (![0, 0] : Fin 2 → Nat) = fun _ => 0 := funext fun a => by fin_cases a <;> rfl

/-- The printed index maps over the ten points: a row window sits at block t, a window staged whole at block 0. -/
theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of ONE function of the arrays the region reads. -/
theorem flushed_eq (c : Dev nD) (t : Fin cfg4.N) :
    (dat4 V c).flushed 3 t = ((cfg4.win 3).blk t).view.read (Elt Ideal) (headOut (V c main_v73) (V c main_arg8) (V c main_v30)) := by
  show (cfg4.win 3).cut (grid4.coords t) ((dat4 V c).after 3 t) = _
  rw [after4_3]
  unfold out4_3
  rw [View.canon_unit_zero origin2]
  simp only [View.ld_unit_zero (S := S5000x128) origin2, View.ld_unit_zero (S := S128x40) origin2, View.ld_unit_zero (S := S1x40) origin2]
  obtain ⟨e0, e1, e2, e3, e4, e5, e6, e7⟩ := index_facts t
  funext j
  refine (pay4_at (iblk4 V c 0 t) (iblk4 V c 1 t) (iblk4 V c 2 t) j).trans ?_
  show (∑ k : Fin 128, (_ : EReal)) + (_ : EReal) = (∑ k : Fin 128, (_ : EReal)) + (_ : EReal)
  refine congrArg₂ (fun p q : EReal => p + q) (Finset.sum_congr rfl fun k _ => ?_) ?_
  · show hiddenArr V c (((cfg4.win 0).blk t).view.emb (ix2 (j 0) k)) * headArr V c (((cfg4.win 1).blk t).view.emb (ix2 k (j 1)))
       = hiddenArr V c (ix2 ((((cfg4.win 3).blk t).view.emb j) 0) k) * headArr V c (ix2 k ((((cfg4.win 3).blk t).view.emb j) 1))
    have h0 : ((cfg4.win 0).blk t).view.emb (ix2 (j 0) k) = ix2 ((((cfg4.win 3).blk t).view.emb j) 0) k := by
      funext a; apply Fin.ext
      match a with
      | ⟨0, _⟩ => show win4_0.index t (0 : Fin 2) * 5000 + 1 * (j 0).val = win4_3.index t (0 : Fin 2) * 5000 + 1 * (j 0).val; omega
      | ⟨1, _⟩ => show win4_0.index t (1 : Fin 2) * 128 + 1 * k.val = k.val; omega
    have h1 : ((cfg4.win 1).blk t).view.emb (ix2 k (j 1)) = ix2 k ((((cfg4.win 3).blk t).view.emb j) 1) := by
      funext a; apply Fin.ext
      match a with
      | ⟨0, _⟩ => show win4_1.index t (0 : Fin 2) * 128 + 1 * k.val = k.val; omega
      | ⟨1, _⟩ => show win4_1.index t (1 : Fin 2) * 40 + 1 * (j 1).val = win4_3.index t (1 : Fin 2) * 40 + 1 * (j 1).val; omega
    rw [h0, h1] <;> rfl
  · show headBiasArr V c (((cfg4.win 2).blk t).view.emb (ix2 (0 : Fin 1) (j 1))) = headBiasArr V c (ix2 (0 : Fin 1) ((((cfg4.win 3).blk t).view.emb j) 1))
    have h2 : ((cfg4.win 2).blk t).view.emb (ix2 (0 : Fin 1) (j 1)) = ix2 (0 : Fin 1) ((((cfg4.win 3).blk t).view.emb j) 1) := by
      funext a; apply Fin.ext
      match a with
      | ⟨0, _⟩ => show win4_2.index t (0 : Fin 2) * 1 + 1 * 0 = 0; omega
      | ⟨1, _⟩ => show win4_2.index t (1 : Fin 2) * 40 + 1 * (j 1).val = win4_3.index t (1 : Fin 2) * 40 + 1 * (j 1).val; omega
    rw [h2] <;> rfl

/-- An index of the result array is in point t's block iff each coordinate is in the block's range. -/
theorem mem_blk (t : Fin cfg4.N) (i : S50000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v74).slice (win4_3.rect t)).set ↔ _
  rw [View.set_slice_whole, Rect.mem_set_unit]
  exact Iff.rfl

/-- Every row lies in the block of the point its number divided by 5000 names: the ten blocks tile the array. -/
theorem cover (i : S50000x40.Idx) : ∃ t : Fin cfg4.N, (cfg4.win 3).flush t = true ∧ i ∈ ((cfg4.win 3).blk t).view.set := by
  have hi0 : (i 0).val < 50000 := (i 0).isLt
  have hi1 : (i 1).val < 40 := (i 1).isLt
  have hN : (i 0).val / 5000 < cfg4.N := by show (i 0).val / 5000 < grid4.N; rw [N_4]; omega
  refine ⟨⟨(i 0).val / 5000, hN⟩, flush4_3 _, ?_⟩
  rw [mem_blk]
  obtain ⟨e0, e1, e2, e3, e4, e5, e6, e7⟩ := index_facts ⟨(i 0).val / 5000, hN⟩
  intro a
  match a with
  | ⟨0, _⟩ => show win4_3.index ⟨(i 0).val / 5000, hN⟩ (0 : Fin 2) * 5000 ≤ (i 0).val ∧ (i 0).val < win4_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win4_3.index ⟨(i 0).val / 5000, hN⟩ (1 : Fin 2) * 40 ≤ (i 1).val ∧ (i 1).val < win4_3.index ⟨(i 0).val / 5000, hN⟩ (1 : Fin 2) * 40 + 40; rw [e7]; omega

/-- THE RESULT ARRAY after the region. -/
theorem final (c : Dev nD) : (dat4 V c).arrAt 3 cfg4.N = headOut (V c main_v73) (V c main_arg8) (V c main_v30) :=
  (dat4 V c).arrAt_eq_of_cover 3 (headOut (V c main_v73) (V c main_arg8) (V c main_v30)) (fun t _ => flushed_eq V c t) cover

end Cert.KernelIdeal.Region4

end
-- ==== Proof.KFold.lean ====
/-
  The program's buffers at each boundary between its host stretches and its regions, read as values of the launch
  memory: the first product after region 0, the first aggregation after the stretch that follows it, and so on to the
  hidden state after region 3 and the scores after region 4. The source and destination vectors, the normalisation
  and the bias rows are written once, before the first region, and carried unchanged through every later boundary
  (no later stretch writes them and no region has them as an output), and so are the weight matrices.
-/
import proofs.«177000_j57277683859885_1_alg».proof.Proof.Gen.KernelIdeal.Frame
import proofs.«177000_j57277683859885_1_alg».proof.Proof.KSpec
import proofs.«177000_j57277683859885_1_alg».proof.Proof.KRegion0
import proofs.«177000_j57277683859885_1_alg».proof.Proof.KRegion1
import proofs.«177000_j57277683859885_1_alg».proof.Proof.KRegion2
import proofs.«177000_j57277683859885_1_alg».proof.Proof.KRegion3
import proofs.«177000_j57277683859885_1_alg».proof.Proof.KRegion4

set_option maxRecDepth 16384

noncomputable section

namespace Cert.KernelIdeal.Fold

open Cert.KernelIdeal Cert.KernelIdeal.Gen Cert.KernelIdeal.Body Cert.KernelIdeal.Host Cert.KernelIdeal.Spec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## What is carried -/

theorem at1_v3 (c : Dev nD) : W1 m ρ c (Proc.devRef .tc main_v3) = srcOf (m ((c : Thread nD τ).loc main_arg1)) := Host.pre_src (W0 m ρ c)
theorem at2_v3 (c : Dev nD) : W2 m ρ c (Proc.devRef .tc main_v3) = srcOf (m ((c : Thread nD τ).loc main_arg1)) := (W2_of_ne m ρ c main_v3 (by decide)).trans (at1_v3 m ρ c)
theorem at3_v3 (c : Dev nD) : W3 m ρ c (Proc.devRef .tc main_v3) = srcOf (m ((c : Thread nD τ).loc main_arg1)) := (Host.keep1_v3 (W2 m ρ c)).trans (at2_v3 m ρ c)
theorem at4_v3 (c : Dev nD) : W4 m ρ c (Proc.devRef .tc main_v3) = srcOf (m ((c : Thread nD τ).loc main_arg1)) := (W4_of_ne m ρ c main_v3 (by decide)).trans (at3_v3 m ρ c)
theorem at5_v3 (c : Dev nD) : W5 m ρ c (Proc.devRef .tc main_v3) = srcOf (m ((c : Thread nD τ).loc main_arg1)) := (Host.keep2_v3 (W4 m ρ c)).trans (at4_v3 m ρ c)
theorem at6_v3 (c : Dev nD) : W6 m ρ c (Proc.devRef .tc main_v3) = srcOf (m ((c : Thread nD τ).loc main_arg1)) := (W6_of_ne m ρ c main_v3 (by decide)).trans (at5_v3 m ρ c)
theorem at1_v6 (c : Dev nD) : W1 m ρ c (Proc.devRef .tc main_v6) = dstOf (m ((c : Thread nD τ).loc main_arg1)) := Host.pre_dst (W0 m ρ c)
theorem at2_v6 (c : Dev nD) : W2 m ρ c (Proc.devRef .tc main_v6) = dstOf (m ((c : Thread nD τ).loc main_arg1)) := (W2_of_ne m ρ c main_v6 (by decide)).trans (at1_v6 m ρ c)
theorem at3_v6 (c : Dev nD) : W3 m ρ c (Proc.devRef .tc main_v6) = dstOf (m ((c : Thread nD τ).loc main_arg1)) := (Host.keep1_v6 (W2 m ρ c)).trans (at2_v6 m ρ c)
theorem at4_v6 (c : Dev nD) : W4 m ρ c (Proc.devRef .tc main_v6) = dstOf (m ((c : Thread nD τ).loc main_arg1)) := (W4_of_ne m ρ c main_v6 (by decide)).trans (at3_v6 m ρ c)
theorem at5_v6 (c : Dev nD) : W5 m ρ c (Proc.devRef .tc main_v6) = dstOf (m ((c : Thread nD τ).loc main_arg1)) := (Host.keep2_v6 (W4 m ρ c)).trans (at4_v6 m ρ c)
theorem at6_v6 (c : Dev nD) : W6 m ρ c (Proc.devRef .tc main_v6) = dstOf (m ((c : Thread nD τ).loc main_arg1)) := (W6_of_ne m ρ c main_v6 (by decide)).trans (at5_v6 m ρ c)
theorem at1_v26 (c : Dev nD) : W1 m ρ c (Proc.devRef .tc main_v26) = normOf (m ((c : Thread nD τ).loc main_arg1)) := Host.pre_norm (W0 m ρ c)
theorem at2_v26 (c : Dev nD) : W2 m ρ c (Proc.devRef .tc main_v26) = normOf (m ((c : Thread nD τ).loc main_arg1)) := (W2_of_ne m ρ c main_v26 (by decide)).trans (at1_v26 m ρ c)
theorem at3_v26 (c : Dev nD) : W3 m ρ c (Proc.devRef .tc main_v26) = normOf (m ((c : Thread nD τ).loc main_arg1)) := (Host.keep1_v26 (W2 m ρ c)).trans (at2_v26 m ρ c)
theorem at4_v26 (c : Dev nD) : W4 m ρ c (Proc.devRef .tc main_v26) = normOf (m ((c : Thread nD τ).loc main_arg1)) := (W4_of_ne m ρ c main_v26 (by decide)).trans (at3_v26 m ρ c)
theorem at5_v26 (c : Dev nD) : W5 m ρ c (Proc.devRef .tc main_v26) = normOf (m ((c : Thread nD τ).loc main_arg1)) := (Host.keep2_v26 (W4 m ρ c)).trans (at4_v26 m ρ c)
theorem at6_v26 (c : Dev nD) : W6 m ρ c (Proc.devRef .tc main_v26) = normOf (m ((c : Thread nD τ).loc main_arg1)) := (W6_of_ne m ρ c main_v26 (by decide)).trans (at5_v26 m ρ c)
theorem at1_v27 (c : Dev nD) : W1 m ρ c (Proc.devRef .tc main_v27) = row128 (m ((c : Thread nD τ).loc main_arg3)) := Host.pre_bias1 (W0 m ρ c)
theorem at2_v27 (c : Dev nD) : W2 m ρ c (Proc.devRef .tc main_v27) = row128 (m ((c : Thread nD τ).loc main_arg3)) := (W2_of_ne m ρ c main_v27 (by decide)).trans (at1_v27 m ρ c)
theorem at3_v27 (c : Dev nD) : W3 m ρ c (Proc.devRef .tc main_v27) = row128 (m ((c : Thread nD τ).loc main_arg3)) := (Host.keep1_v27 (W2 m ρ c)).trans (at2_v27 m ρ c)
theorem at1_v28 (c : Dev nD) : W1 m ρ c (Proc.devRef .tc main_v28) = row128 (m ((c : Thread nD τ).loc main_arg5)) := Host.pre_bias2 (W0 m ρ c)
theorem at2_v28 (c : Dev nD) : W2 m ρ c (Proc.devRef .tc main_v28) = row128 (m ((c : Thread nD τ).loc main_arg5)) := (W2_of_ne m ρ c main_v28 (by decide)).trans (at1_v28 m ρ c)
theorem at3_v28 (c : Dev nD) : W3 m ρ c (Proc.devRef .tc main_v28) = row128 (m ((c : Thread nD τ).loc main_arg5)) := (Host.keep1_v28 (W2 m ρ c)).trans (at2_v28 m ρ c)
theorem at4_v28 (c : Dev nD) : W4 m ρ c (Proc.devRef .tc main_v28) = row128 (m ((c : Thread nD τ).loc main_arg5)) := (W4_of_ne m ρ c main_v28 (by decide)).trans (at3_v28 m ρ c)
theorem at5_v28 (c : Dev nD) : W5 m ρ c (Proc.devRef .tc main_v28) = row128 (m ((c : Thread nD τ).loc main_arg5)) := (Host.keep2_v28 (W4 m ρ c)).trans (at4_v28 m ρ c)
theorem at1_v29 (c : Dev nD) : W1 m ρ c (Proc.devRef .tc main_v29) = row128 (m ((c : Thread nD τ).loc main_arg7)) := Host.pre_bias3 (W0 m ρ c)
theorem at2_v29 (c : Dev nD) : W2 m ρ c (Proc.devRef .tc main_v29) = row128 (m ((c : Thread nD τ).loc main_arg7)) := (W2_of_ne m ρ c main_v29 (by decide)).trans (at1_v29 m ρ c)
theorem at3_v29 (c : Dev nD) : W3 m ρ c (Proc.devRef .tc main_v29) = row128 (m ((c : Thread nD τ).loc main_arg7)) := (Host.keep1_v29 (W2 m ρ c)).trans (at2_v29 m ρ c)
theorem at4_v29 (c : Dev nD) : W4 m ρ c (Proc.devRef .tc main_v29) = row128 (m ((c : Thread nD τ).loc main_arg7)) := (W4_of_ne m ρ c main_v29 (by decide)).trans (at3_v29 m ρ c)
theorem at5_v29 (c : Dev nD) : W5 m ρ c (Proc.devRef .tc main_v29) = row128 (m ((c : Thread nD τ).loc main_arg7)) := (Host.keep2_v29 (W4 m ρ c)).trans (at4_v29 m ρ c)
theorem at6_v29 (c : Dev nD) : W6 m ρ c (Proc.devRef .tc main_v29) = row128 (m ((c : Thread nD τ).loc main_arg7)) := (W6_of_ne m ρ c main_v29 (by decide)).trans (at5_v29 m ρ c)
theorem at7_v29 (c : Dev nD) : W7 m ρ c (Proc.devRef .tc main_v29) = row128 (m ((c : Thread nD τ).loc main_arg7)) := (Host.keep3_v29 (W6 m ρ c)).trans (at6_v29 m ρ c)
theorem at1_v30 (c : Dev nD) : W1 m ρ c (Proc.devRef .tc main_v30) = row40 (m ((c : Thread nD τ).loc main_arg9)) := Host.pre_headBias (W0 m ρ c)
theorem at2_v30 (c : Dev nD) : W2 m ρ c (Proc.devRef .tc main_v30) = row40 (m ((c : Thread nD τ).loc main_arg9)) := (W2_of_ne m ρ c main_v30 (by decide)).trans (at1_v30 m ρ c)
theorem at3_v30 (c : Dev nD) : W3 m ρ c (Proc.devRef .tc main_v30) = row40 (m ((c : Thread nD τ).loc main_arg9)) := (Host.keep1_v30 (W2 m ρ c)).trans (at2_v30 m ρ c)
theorem at4_v30 (c : Dev nD) : W4 m ρ c (Proc.devRef .tc main_v30) = row40 (m ((c : Thread nD τ).loc main_arg9)) := (W4_of_ne m ρ c main_v30 (by decide)).trans (at3_v30 m ρ c)
theorem at5_v30 (c : Dev nD) : W5 m ρ c (Proc.devRef .tc main_v30) = row40 (m ((c : Thread nD τ).loc main_arg9)) := (Host.keep2_v30 (W4 m ρ c)).trans (at4_v30 m ρ c)
theorem at6_v30 (c : Dev nD) : W6 m ρ c (Proc.devRef .tc main_v30) = row40 (m ((c : Thread nD τ).loc main_arg9)) := (W6_of_ne m ρ c main_v30 (by decide)).trans (at5_v30 m ρ c)
theorem at7_v30 (c : Dev nD) : W7 m ρ c (Proc.devRef .tc main_v30) = row40 (m ((c : Thread nD τ).loc main_arg9)) := (Host.keep3_v30 (W6 m ρ c)).trans (at6_v30 m ρ c)
theorem at8_v30 (c : Dev nD) : W8 m ρ c (Proc.devRef .tc main_v30) = row40 (m ((c : Thread nD τ).loc main_arg9)) := (W8_of_ne m ρ c main_v30 (by decide)).trans (at7_v30 m ρ c)
theorem at1_arg0 (c : Dev nD) : W1 m ρ c (Proc.devRef .tc main_arg0) = m ((c : Thread nD τ).loc main_arg0) := Host.keep0_arg0 (W0 m ρ c)
theorem at1_arg2 (c : Dev nD) : W1 m ρ c (Proc.devRef .tc main_arg2) = m ((c : Thread nD τ).loc main_arg2) := Host.keep0_arg2 (W0 m ρ c)
theorem at1_arg4 (c : Dev nD) : W1 m ρ c (Proc.devRef .tc main_arg4) = m ((c : Thread nD τ).loc main_arg4) := Host.keep0_arg4 (W0 m ρ c)
theorem at2_arg4 (c : Dev nD) : W2 m ρ c (Proc.devRef .tc main_arg4) = m ((c : Thread nD τ).loc main_arg4) := (W2_of_ne m ρ c main_arg4 (by decide)).trans (at1_arg4 m ρ c)
theorem at3_arg4 (c : Dev nD) : W3 m ρ c (Proc.devRef .tc main_arg4) = m ((c : Thread nD τ).loc main_arg4) := (Host.keep1_arg4 (W2 m ρ c)).trans (at2_arg4 m ρ c)
theorem at1_arg6 (c : Dev nD) : W1 m ρ c (Proc.devRef .tc main_arg6) = m ((c : Thread nD τ).loc main_arg6) := Host.keep0_arg6 (W0 m ρ c)
theorem at2_arg6 (c : Dev nD) : W2 m ρ c (Proc.devRef .tc main_arg6) = m ((c : Thread nD τ).loc main_arg6) := (W2_of_ne m ρ c main_arg6 (by decide)).trans (at1_arg6 m ρ c)
theorem at3_arg6 (c : Dev nD) : W3 m ρ c (Proc.devRef .tc main_arg6) = m ((c : Thread nD τ).loc main_arg6) := (Host.keep1_arg6 (W2 m ρ c)).trans (at2_arg6 m ρ c)
theorem at4_arg6 (c : Dev nD) : W4 m ρ c (Proc.devRef .tc main_arg6) = m ((c : Thread nD τ).loc main_arg6) := (W4_of_ne m ρ c main_arg6 (by decide)).trans (at3_arg6 m ρ c)
theorem at5_arg6 (c : Dev nD) : W5 m ρ c (Proc.devRef .tc main_arg6) = m ((c : Thread nD τ).loc main_arg6) := (Host.keep2_arg6 (W4 m ρ c)).trans (at4_arg6 m ρ c)
theorem at1_arg8 (c : Dev nD) : W1 m ρ c (Proc.devRef .tc main_arg8) = m ((c : Thread nD τ).loc main_arg8) := Host.keep0_arg8 (W0 m ρ c)
theorem at2_arg8 (c : Dev nD) : W2 m ρ c (Proc.devRef .tc main_arg8) = m ((c : Thread nD τ).loc main_arg8) := (W2_of_ne m ρ c main_arg8 (by decide)).trans (at1_arg8 m ρ c)
theorem at3_arg8 (c : Dev nD) : W3 m ρ c (Proc.devRef .tc main_arg8) = m ((c : Thread nD τ).loc main_arg8) := (Host.keep1_arg8 (W2 m ρ c)).trans (at2_arg8 m ρ c)
theorem at4_arg8 (c : Dev nD) : W4 m ρ c (Proc.devRef .tc main_arg8) = m ((c : Thread nD τ).loc main_arg8) := (W4_of_ne m ρ c main_arg8 (by decide)).trans (at3_arg8 m ρ c)
theorem at5_arg8 (c : Dev nD) : W5 m ρ c (Proc.devRef .tc main_arg8) = m ((c : Thread nD τ).loc main_arg8) := (Host.keep2_arg8 (W4 m ρ c)).trans (at4_arg8 m ρ c)
theorem at6_arg8 (c : Dev nD) : W6 m ρ c (Proc.devRef .tc main_arg8) = m ((c : Thread nD τ).loc main_arg8) := (W6_of_ne m ρ c main_arg8 (by decide)).trans (at5_arg8 m ρ c)
theorem at7_arg8 (c : Dev nD) : W7 m ρ c (Proc.devRef .tc main_arg8) = m ((c : Thread nD τ).loc main_arg8) := (Host.keep3_arg8 (W6 m ρ c)).trans (at6_arg8 m ρ c)
theorem at8_arg8 (c : Dev nD) : W8 m ρ c (Proc.devRef .tc main_arg8) = m ((c : Thread nD τ).loc main_arg8) := (W8_of_ne m ρ c main_arg8 (by decide)).trans (at7_arg8 m ρ c)

/-! ## The stages -/

/-- After region 0: the first product. -/
theorem prod1 (c : Dev nD) : W2 m ρ c (Proc.devRef .tc main_v31) = product (m ((c : Thread nD τ).loc main_arg0)) (m ((c : Thread nD τ).loc main_arg2)) :=
  (W2_arr m ρ c 2).trans ((Region0.final (V1 m ρ) c).trans (by
    show product (W1 m ρ c (Proc.devRef .tc main_arg0)) (W1 m ρ c (Proc.devRef .tc main_arg2)) = _
    rw [at1_arg0, at1_arg2]))

/-- After the stretch that follows: the first aggregation. -/
theorem agg1 (c : Dev nD) : W3 m ρ c (Proc.devRef .tc main_v44) = agg (m ((c : Thread nD τ).loc main_arg1)) (product (m ((c : Thread nD τ).loc main_arg0)) (m ((c : Thread nD τ).loc main_arg2))) :=
  (Host.stretch1 (W2 m ρ c)).trans (by rw [at2_v3, at2_v6, at2_v26, prod1])

/-- After region 1: bias, clamp and the second product. -/
theorem prod2 (c : Dev nD) : W4 m ρ c (Proc.devRef .tc main_v45) = layer (agg (m ((c : Thread nD τ).loc main_arg1)) (product (m ((c : Thread nD τ).loc main_arg0)) (m ((c : Thread nD τ).loc main_arg2)))) (row128 (m ((c : Thread nD τ).loc main_arg3))) (m ((c : Thread nD τ).loc main_arg4)) :=
  (W4_arr m ρ c 3).trans ((Region1.final (V3 m ρ) c).trans (by
    show layer (W3 m ρ c (Proc.devRef .tc main_v44)) (W3 m ρ c (Proc.devRef .tc main_v27)) (W3 m ρ c (Proc.devRef .tc main_arg4)) = _
    rw [agg1, at3_v27, at3_arg4]))

theorem agg2 (c : Dev nD) : W5 m ρ c (Proc.devRef .tc main_v58) = agg (m ((c : Thread nD τ).loc main_arg1)) (layer (agg (m ((c : Thread nD τ).loc main_arg1)) (product (m ((c : Thread nD τ).loc main_arg0)) (m ((c : Thread nD τ).loc main_arg2)))) (row128 (m ((c : Thread nD τ).loc main_arg3))) (m ((c : Thread nD τ).loc main_arg4))) :=
  (Host.stretch2 (W4 m ρ c)).trans (by rw [at4_v3, at4_v6, at4_v26, prod2])

/-- After region 2: bias, clamp and the third product. -/
theorem prod3 (c : Dev nD) : W6 m ρ c (Proc.devRef .tc main_v59) = layer (agg (m ((c : Thread nD τ).loc main_arg1)) (layer (agg (m ((c : Thread nD τ).loc main_arg1)) (product (m ((c : Thread nD τ).loc main_arg0)) (m ((c : Thread nD τ).loc main_arg2)))) (row128 (m ((c : Thread nD τ).loc main_arg3))) (m ((c : Thread nD τ).loc main_arg4)))) (row128 (m ((c : Thread nD τ).loc main_arg5))) (m ((c : Thread nD τ).loc main_arg6)) :=
  (W6_arr m ρ c 3).trans ((Region2.final (V5 m ρ) c).trans (by
    show layer (W5 m ρ c (Proc.devRef .tc main_v58)) (W5 m ρ c (Proc.devRef .tc main_v28)) (W5 m ρ c (Proc.devRef .tc main_arg6)) = _
    rw [agg2, at5_v28, at5_arg6]))

theorem agg3 (c : Dev nD) : W7 m ρ c (Proc.devRef .tc main_v72) = agg (m ((c : Thread nD τ).loc main_arg1)) (layer (agg (m ((c : Thread nD τ).loc main_arg1)) (layer (agg (m ((c : Thread nD τ).loc main_arg1)) (product (m ((c : Thread nD τ).loc main_arg0)) (m ((c : Thread nD τ).loc main_arg2)))) (row128 (m ((c : Thread nD τ).loc main_arg3))) (m ((c : Thread nD τ).loc main_arg4)))) (row128 (m ((c : Thread nD τ).loc main_arg5))) (m ((c : Thread nD τ).loc main_arg6))) :=
  (Host.stretch3 (W6 m ρ c)).trans (by rw [at6_v3, at6_v6, at6_v26, prod3])

/-- After region 3: the hidden state. -/
theorem hidden_at8 (c : Dev nD) : W8 m ρ c (Proc.devRef .tc main_v73) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 2).trans ((Region3.final (V7 m ρ) c).trans (by
    show biasClamp (W7 m ρ c (Proc.devRef .tc main_v72)) (W7 m ρ c (Proc.devRef .tc main_v29)) = _
    rw [agg3, at7_v29]; rfl))

/-- Region 4 only reads the hidden state: it ends as region 3 left it. -/
theorem hidden_at9 (c : Dev nD) : W9 m ρ c (Proc.devRef .tc main_v73) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W9_arr m ρ c 0).trans (((dat4 (V8 m ρ) c).arrAt_in 0 rfl _).trans ((A_eq4 (V8 m ρ) c 0).trans (hidden_at8 m ρ c)))

/-- After region 4: the scores. -/
theorem scores_at9 (c : Dev nD) : W9 m ρ c (Proc.devRef .tc main_v74) = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W9_arr m ρ c 3).trans ((Region4.final (V8 m ρ) c).trans (by
    show headOut (W8 m ρ c (Proc.devRef .tc main_v73)) (W8 m ρ c (Proc.devRef .tc main_arg8)) (W8 m ρ c (Proc.devRef .tc main_v30)) = _
    rw [hidden_at8, at8_arg8, at8_v30]; rfl))

end Cert.KernelIdeal.Fold

end
-- ==== Proof.RefBridge.lean ====
/-
  The reference, stage by stage, is the specification.

  The reference computes the same three rounds with whole-array host operations. Each of its matrix products is, at
  row i and column j, the sum over k of the left operand's [i,k] times the right's [k,j] (the generated read-back of a
  `dot_general`); its bias add and clamp are entry by entry, the bias spread from a 128-vector where the kernel lays it
  out as one row (both read the bias at the entry's column); and its aggregation is literally the same gather, scale
  and scatter chain over the same source, destination and normalisation vectors. So its two results are `hidden` and
  `scores` of its arguments.
-/
import proofs.«177000_j57277683859885_1_alg».proof.Proof.Gen.ReferenceIdeal.Read
import proofs.«177000_j57277683859885_1_alg».proof.Proof.KSpec
import Idealize.ShloMosaic.Lib.ValueIdx
import Idealize.ShloMosaic.Lib.Pipeline.Value

set_option maxRecDepth 16384

noncomputable section

namespace Cert.ReferenceIdeal.Bridge

open Cert.ReferenceIdeal Cert.ReferenceIdeal.Read Idealize.ShloMosaic Idealize.ShloMosaic.ValueIdx
open Cert.KernelIdeal.Body Cert.KernelIdeal.Host Cert.KernelIdeal.Spec

/-! ## A vector laid out as one row, read at a column -/

theorem row128_at (b : (⟨S128, .f32⟩ : BufTy).Contents (Elt Ideal)) (j : Fin 128) (k : S128.Idx) (hk : (k 0).val = j.val) :
    row128 (F := Ideal) b (ix2 (0 : Fin 1) j) = b k := by
  unfold row128
  exact shapeCast_apply b _ (ix2 (0 : Fin 1) j) k (by
    rw [Shape.rowMajor_val_one, Shape.rowMajor_val_two]; show (k 0).val = 0 * 128 + j.val; omega)

theorem row40_at (b : (⟨S40, .f32⟩ : BufTy).Contents (Elt Ideal)) (j : Fin 40) (k : S40.Idx) (hk : (k 0).val = j.val) :
    row40 (F := Ideal) b (ix2 (0 : Fin 1) j) = b k := by
  unfold row40
  exact shapeCast_apply b _ (ix2 (0 : Fin 1) j) k (by
    rw [Shape.rowMajor_val_one, Shape.rowMajor_val_two]; show (k 0).val = 0 * 40 + j.val; omega)

/-! ## First round -/

theorem lidx27 (i : S50000x128.Idx) (k : Fin 128) : lidx_main_v27 i k = ix2 (i 0) k :=
  funext fun a => Fin.ext (by match a with | ⟨0, _⟩ => rfl | ⟨1, _⟩ => rfl)
theorem ridx27 (i : S50000x128.Idx) (k : Fin 128) : ridx_main_v27 i k = ix2 k (i 1) :=
  funext fun a => Fin.ext (by match a with | ⟨0, _⟩ => rfl | ⟨1, _⟩ => rfl)
/-- The reference's matrix product is the same sum over the shared axis. -/
theorem product1 (x0 : (⟨S50000x128, .f32⟩ : BufTy).Contents (Elt Ideal)) (x2 : (⟨S128x128, .f32⟩ : BufTy).Contents (Elt Ideal)) :
    val_main_v27 (F := Ideal) x0 x2 = product (x0) x2 := by
  funext i
  rw [val_main_v27_apply]
  show _ = ∑ k : Fin 128, (x0) (ix2 (i 0) k) * x2 (ix2 k (i 1))
  refine Finset.sum_congr rfl fun k _ => ?_
  rw [lidx27, ridx27] <;> rfl

/-- The reference's aggregation is the same chain over the same vectors. -/
theorem aggregate1 (x0 : (⟨S50000x128, .f32⟩ : BufTy).Contents (Elt Ideal)) (x1 : (⟨S2x800000, .i32⟩ : BufTy).Contents (Elt Ideal)) (x2 : (⟨S128x128, .f32⟩ : BufTy).Contents (Elt Ideal)) : val_main_v40 (F := Ideal) x0 x1 x2 = agg x1 (val_main_v27 (F := Ideal) x0 x2) := rfl

/-- The reference's bias add and clamp at zero, entry by entry, is `biasClamp` of the bias laid out as a row. -/
theorem clamp1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) :
    val_main_v44 (F := Ideal) x0 x1 x2 x3 = biasClamp (val_main_v40 (F := Ideal) x0 x1 x2) (row128 x3) := by
  funext i
  rw [val_main_v44_apply, val_main_v43_apply, val_main_v42_apply, val_main_v41_apply, val_main_call0_v0_apply, val_main_call0_cst_apply]
  show max ((val_main_v40 (F := Ideal) x0 x1 x2) i + x3 (idx_main_v41 (idx_main_v42 i))) (Ideal.ofBits .f32 0x00000000#32)
     = max ((val_main_v40 (F := Ideal) x0 x1 x2) i + row128 x3 (ix2 (0 : Fin 1) (i 1))) (Ideal.ofBits .f32 0x00000000#32)
  rw [row128_at x3 (i 1) (idx_main_v41 (idx_main_v42 i)) rfl]

/-! ## Second round -/

theorem lidx45 (i : S50000x128.Idx) (k : Fin 128) : lidx_main_v45 i k = ix2 (i 0) k :=
  funext fun a => Fin.ext (by match a with | ⟨0, _⟩ => rfl | ⟨1, _⟩ => rfl)
theorem ridx45 (i : S50000x128.Idx) (k : Fin 128) : ridx_main_v45 i k = ix2 k (i 1) :=
  funext fun a => Fin.ext (by match a with | ⟨0, _⟩ => rfl | ⟨1, _⟩ => rfl)
/-- The reference's matrix product is the same sum over the shared axis. -/
theorem product2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v45 (F := Ideal) x0 x1 x2 x3 x4 = product (val_main_v44 (F := Ideal) x0 x1 x2 x3) x4 := by
  funext i
  rw [val_main_v45_apply]
  show _ = ∑ k : Fin 128, (val_main_v44 (F := Ideal) x0 x1 x2 x3) (ix2 (i 0) k) * x4 (ix2 k (i 1))
  refine Finset.sum_congr rfl fun k _ => ?_
  rw [lidx45, ridx45] <;> rfl

theorem aggregate2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) : val_main_v58 (F := Ideal) x0 x1 x2 x3 x4 = agg x1 (val_main_v45 (F := Ideal) x0 x1 x2 x3 x4) := rfl

/-- The reference's bias add and clamp at zero, entry by entry, is `biasClamp` of the bias laid out as a row. -/
theorem clamp2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v62 (F := Ideal) x0 x1 x2 x3 x4 x5 = biasClamp (val_main_v58 (F := Ideal) x0 x1 x2 x3 x4) (row128 x5) := by
  funext i
  rw [val_main_v62_apply, val_main_v61_apply, val_main_v60_apply, val_main_v59_apply, val_main_call1_v0_apply, val_main_call1_cst_apply]
  show max ((val_main_v58 (F := Ideal) x0 x1 x2 x3 x4) i + x5 (idx_main_v59 (idx_main_v60 i))) (Ideal.ofBits .f32 0x00000000#32)
     = max ((val_main_v58 (F := Ideal) x0 x1 x2 x3 x4) i + row128 x5 (ix2 (0 : Fin 1) (i 1))) (Ideal.ofBits .f32 0x00000000#32)
  rw [row128_at x5 (i 1) (idx_main_v59 (idx_main_v60 i)) rfl]

/-! ## Third round -/

theorem lidx63 (i : S50000x128.Idx) (k : Fin 128) : lidx_main_v63 i k = ix2 (i 0) k :=
  funext fun a => Fin.ext (by match a with | ⟨0, _⟩ => rfl | ⟨1, _⟩ => rfl)
theorem ridx63 (i : S50000x128.Idx) (k : Fin 128) : ridx_main_v63 i k = ix2 k (i 1) :=
  funext fun a => Fin.ext (by match a with | ⟨0, _⟩ => rfl | ⟨1, _⟩ => rfl)
/-- The reference's matrix product is the same sum over the shared axis. -/
theorem product3 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v63 (F := Ideal) x0 x1 x2 x3 x4 x5 x6 = product (val_main_v62 (F := Ideal) x0 x1 x2 x3 x4 x5) x6 := by
  funext i
  rw [val_main_v63_apply]
  show _ = ∑ k : Fin 128, (val_main_v62 (F := Ideal) x0 x1 x2 x3 x4 x5) (ix2 (i 0) k) * x6 (ix2 k (i 1))
  refine Finset.sum_congr rfl fun k _ => ?_
  rw [lidx63, ridx63] <;> rfl

theorem aggregate3 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) : val_main_v76 (F := Ideal) x0 x1 x2 x3 x4 x5 x6 = agg x1 (val_main_v63 (F := Ideal) x0 x1 x2 x3 x4 x5 x6) := rfl

/-- The reference's bias add and clamp at zero, entry by entry, is `biasClamp` of the bias laid out as a row. -/
theorem clamp3 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v80 (F := Ideal) x0 x1 x2 x3 x4 x5 x6 x7 = biasClamp (val_main_v76 (F := Ideal) x0 x1 x2 x3 x4 x5 x6) (row128 x7) := by
  funext i
  rw [val_main_v80_apply, val_main_v79_apply, val_main_v78_apply, val_main_v77_apply, val_main_call2_v0_apply, val_main_call2_cst_apply]
  show max ((val_main_v76 (F := Ideal) x0 x1 x2 x3 x4 x5 x6) i + x7 (idx_main_v77 (idx_main_v78 i))) (Ideal.ofBits .f32 0x00000000#32)
     = max ((val_main_v76 (F := Ideal) x0 x1 x2 x3 x4 x5 x6) i + row128 x7 (ix2 (0 : Fin 1) (i 1))) (Ideal.ofBits .f32 0x00000000#32)
  rw [row128_at x7 (i 1) (idx_main_v77 (idx_main_v78 i)) rfl]

/-! ## The two results -/

/-- The reference's hidden state is the specification's. -/
theorem hidden_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) : val_main_v80 (F := Ideal) x0 x1 x2 x3 x4 x5 x6 x7 = hidden x0 x1 x2 x3 x4 x5 x6 x7 := by
  rw [clamp3, aggregate3, product3, clamp2, aggregate2, product2, clamp1, aggregate1, product1]
  rfl

theorem lidx81 (i : S50000x40.Idx) (k : Fin 128) : lidx_main_v81 i k = ix2 (i 0) k :=
  funext fun a => Fin.ext (by match a with | ⟨0, _⟩ => rfl | ⟨1, _⟩ => rfl)
theorem ridx81 (i : S50000x40.Idx) (k : Fin 128) : ridx_main_v81 i k = ix2 k (i 1) :=
  funext fun a => Fin.ext (by match a with | ⟨0, _⟩ => rfl | ⟨1, _⟩ => rfl)

/-- The reference's scores are the specification's. -/
theorem scores_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x40, .f32⟩ : BufTy).Contents (Elt Ideal)) (x9 : (⟨S40, .f32⟩ : BufTy).Contents (Elt Ideal)) :
    val_main_v84 (F := Ideal) x0 x1 x2 x3 x4 x5 x6 x7 x8 x9 = scores x0 x1 x2 x3 x4 x5 x6 x7 x8 x9 := by
  funext i
  rw [val_main_v84_apply, val_main_v81_apply, val_main_v83_apply, val_main_v82_apply, hidden_eq]
  show (∑ k : Fin 128, (hidden x0 x1 x2 x3 x4 x5 x6 x7) (lidx_main_v81 i k) * x8 (ridx_main_v81 i k)) + x9 (idx_main_v82 (idx_main_v83 i))
     = (∑ k : Fin 128, (hidden x0 x1 x2 x3 x4 x5 x6 x7) (ix2 (i 0) k) * x8 (ix2 k (i 1))) + row40 x9 (ix2 (0 : Fin 1) (i 1))
  rw [row40_at x9 (i 1) (idx_main_v82 (idx_main_v83 i)) rfl]
  refine congrArg (· + x9 (idx_main_v82 (idx_main_v83 i))) (Finset.sum_congr rfl fun k _ => ?_)
  rw [lidx81, ridx81] <;> rfl

end Cert.ReferenceIdeal.Bridge

end
-- ==== Proof.lean ====
/-
  A three-layer graph convolution with a linear head, as five tiled kernel regions among host gathers and
  scatter-adds, against the same network written with whole-array operations.

  Over the extended reals a change of float format is the identity and a matrix product into a zero accumulator is the
  plain sum over the contracted axis. Each region tiles the 50000 node rows into ten blocks of 5000 and a block's rows
  depend only on the same rows of the region's row operand, so each region's result array is one function of the whole
  arrays it reads: the product x W1; then bias, clamp at zero and the product with W2, and the same with W3; then bias
  and clamp (the hidden state); then the product with the head matrix plus the head bias (the scores). Between the
  regions both programs run the same aggregation over the edges (gather at the sources, scale by the edge's
  normalisation, add up at the destinations) from the same source, destination and normalisation vectors, which are
  computed once from the edge list and carried unchanged. The reference does the same rounds in the same order, its
  bias spread from a vector where the kernel lays it out as a row. So both programs end with the two results at
  `hidden` and `scores` of the ten arguments; no law is used that needs the inputs finite.
  The ideal pass rewrote nothing, so the idealization claim is trivial; the two kernels' frames are the generated
  frame certificates, and the reference's frame is its generated run with the results dropped.
-/
import proofs.«177000_j57277683859885_1_alg».proof.Defs
import proofs.«177000_j57277683859885_1_alg».proof.Proof.Gen.Kernel
import proofs.«177000_j57277683859885_1_alg».proof.Proof.Gen.Kernel.Skeleton
import proofs.«177000_j57277683859885_1_alg».proof.Proof.Gen.Kernel.Launch
import proofs.«177000_j57277683859885_1_alg».proof.Proof.Gen.Kernel.Points
import proofs.«177000_j57277683859885_1_alg».proof.Proof.Gen.Kernel.Frame
import proofs.«177000_j57277683859885_1_alg».proof.Proof.Gen.KernelIdeal
import proofs.«177000_j57277683859885_1_alg».proof.Proof.Gen.KernelIdeal.Skeleton
import proofs.«177000_j57277683859885_1_alg».proof.Proof.Gen.KernelIdeal.Launch
import proofs.«177000_j57277683859885_1_alg».proof.Proof.Gen.KernelIdeal.Points
import proofs.«177000_j57277683859885_1_alg».proof.Proof.Gen.KernelIdeal.Frame
import proofs.«177000_j57277683859885_1_alg».proof.Proof.Gen.ReferenceIdeal
import proofs.«177000_j57277683859885_1_alg».proof.Proof.Gen.ReferenceIdeal.Run
import proofs.«177000_j57277683859885_1_alg».proof.Proof.Gen.ReferenceIdeal.Read
import proofs.«177000_j57277683859885_1_alg».proof.Proof.Gen.Pre_finite_inputs
import proofs.«177000_j57277683859885_1_alg».proof.Proof.KRun
import proofs.«177000_j57277683859885_1_alg».proof.Proof.KFold
import proofs.«177000_j57277683859885_1_alg».proof.Proof.RefBridge
import Idealize.ShloMosaic.Adequacy
import Idealize.ShloMosaic.Init

noncomputable section

namespace Cert.Proof

open Idealize.ShloMosaic Idealize.ShloMosaic.TcCoe Idealize.SL.Sem
open Cert.KernelIdeal.Spec

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The idealized kernel ends with its two results at `hidden` and `scores` of the launch arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v73) = hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_v74) = scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono
    (fun r h c => ⟨(h c).1.trans (Cert.KernelIdeal.Fold.hidden_at9 m ρ c), (h c).2.1.trans (Cert.KernelIdeal.Fold.scores_at9 m ρ c), (h c).2.2⟩)
    (Cert.KernelIdeal.RunResults.run_results m ρ)

/-- Both idealized programs, from memories that agree on the arguments, end with the same two results. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Read.val_main_v80_eq, Cert.ReferenceIdeal.Bridge.hidden_eq, a0, a1, a2, a3, a4, a5, a6, a7]
  · obtain ⟨a0, a1, a2, a3, a4, a5, a6, a7, a8, a9⟩ := hagree c
    rw [Cert.ReferenceIdeal.Read.val_main_v84_eq, Cert.ReferenceIdeal.Bridge.scores_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
